-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S32x4096 : Shape := ⟨2, ![32, 4096]⟩
abbrev S4096 : Shape := ⟨1, ![4096]⟩
abbrev S512x4096 : Shape := ⟨2, ![512, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2048x4096 .f32) (main_arg1 : FVec F S32x4096 .f32) (main_arg2 : FVec F S32x4096 .f32) (main_arg3 : FVec F S4096 .f32) (main_arg4 : IVec S512x4096 32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2048x4096 : Shape := ⟨2, ![2048, 4096]⟩
abbrev S32x4096 : Shape := ⟨2, ![32, 4096]⟩
abbrev S4096 : Shape := ⟨1, ![4096]⟩
abbrev S512x4096 : Shape := ⟨2, ![512, 4096]⟩
abbrev S1x4096 : Shape := ⟨2, ![1, 4096]⟩
abbrev S32x1x4096 : Shape := ⟨3, ![32, 1, 4096]⟩
abbrev S512x256 : Shape := ⟨2, ![512, 256]⟩
abbrev S2x1x4096 : Shape := ⟨3, ![2, 1, 4096]⟩
abbrev S1x8x1 : Shape := ⟨3, ![1, 8, 1]⟩
abbrev S32x8x4096 : Shape := ⟨3, ![32, 8, 4096]⟩
abbrev S256x4096 : Shape := ⟨2, ![256, 4096]⟩
abbrev S2x128x4096 : Shape := ⟨3, ![2, 128, 4096]⟩

abbrev nBuf : Space → Nat
  | .hbm => 9
  | .vmem => 11
  | .smem => 0
  | _ => 0

abbrev bufTy : (tb : Table) → Fin (tcTables nBuf tb) → BufTy
  | .hbm, ⟨0, _⟩ => ⟨S2048x4096, .f32⟩
  | .hbm, ⟨1, _⟩ => ⟨S32x4096, .f32⟩
  | .hbm, ⟨2, _⟩ => ⟨S32x4096, .f32⟩
  | .hbm, ⟨3, _⟩ => ⟨S4096, .f32⟩
  | .hbm, ⟨4, _⟩ => ⟨S512x4096, .i32⟩
  | .hbm, ⟨5, _⟩ => ⟨S1x4096, .f32⟩
  | .hbm, ⟨6, _⟩ => ⟨S32x1x4096, .f32⟩
  | .hbm, ⟨7, _⟩ => ⟨S32x1x4096, .f32⟩
  | .hbm, ⟨8, _⟩ => ⟨S2048x4096, .f32⟩
  | .local _ .vmem, ⟨0, _⟩ => ⟨S512x256, .f32⟩
  | .local _ .vmem, ⟨1, _⟩ => ⟨S512x256, .f32⟩
  | .local _ .vmem, ⟨2, _⟩ => ⟨S32x4096, .i32⟩
  | .local _ .vmem, ⟨3, _⟩ => ⟨S32x4096, .i32⟩
  | .local _ .vmem, ⟨4, _⟩ => ⟨S2x1x4096, .f32⟩
  | .local _ .vmem, ⟨5, _⟩ => ⟨S2x1x4096, .f32⟩
  | .local _ .vmem, ⟨6, _⟩ => ⟨S2x1x4096, .f32⟩
  | .local _ .vmem, ⟨7, _⟩ => ⟨S2x1x4096, .f32⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4096_S1x4096 : S4096.ShapeCasts S1x4096
  shapeCasts_S32x4096_S32x1x4096 : S32x4096.ShapeCasts S32x1x4096
  inb_S512x4096_S512x4096_0_0 : ∀ a, (![0, 0] : Fin 2 → Nat) a + S512x4096.size a ≤ S512x4096.size a
  h_S512x4096 : 0 < S512x4096.numel
  inb_S32x4096_S32x4096_0_0 : ∀ a, (![0, 0] : Fin 2 → Nat) a + S32x4096.size a ≤ S32x4096.size a
  h_S32x4096 : 0 < S32x4096.numel
  iota_S1x8x1_d1_w32 : S1x8x1.Iotas .tc 32 [1]
  broadcasts_S32x1x4096_S32x8x4096 : S32x1x4096.Broadcasts S32x8x4096
  broadcasts_S1x8x1_S32x8x4096 : S1x8x1.Broadcasts S32x8x4096
  shapeCasts_S32x8x4096_S256x4096 : S32x8x4096.ShapeCasts S256x4096
  shapeCasts_S256x4096_S2x128x4096 : S256x4096.ShapeCasts S2x128x4096
  inb_S2x1x4096_S2x1x4096_0_0_0 : ∀ a, (![0, 0, 0] : Fin 3 → Nat) a + S2x1x4096.size a ≤ S2x1x4096.size a
  h_S2x1x4096 : 0 < S2x1x4096.numel
  shapeCasts_S2x1x4096_S2x1x4096 : S2x1x4096.ShapeCasts S2x1x4096
  broadcasts_S2x1x4096_S2x128x4096 : S2x1x4096.Broadcasts S2x128x4096
  shapeCasts_S2x128x4096_S256x4096 : S2x128x4096.ShapeCasts S256x4096
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x4096.size a
  hwx0_0 : ∀ i : grid0.Coords, EltTy.bits .f32 = 32 ∨ (Rect.block (s := S2048x4096) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S512x4096.size a
  hwx0_1 : ∀ i : grid0.Coords, EltTy.bits .i32 = 32 ∨ (Rect.block (s := S512x4096) S32x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x4096.size a ≤ S32x1x4096.size a
  hwx0_2 : ∀ i : grid0.Coords, EltTy.bits .f32 = 32 ∨ (Rect.block (s := S32x1x4096) S2x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x4096.size a ≤ S32x1x4096.size a
  hwx0_3 : ∀ i : grid0.Coords, EltTy.bits .f32 = 32 ∨ (Rect.block (s := S32x1x4096) S2x1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S2048x4096.size a
  hwx0_5 : ∀ i : grid0.Coords, EltTy.bits .f32 = 32 ∨ (Rect.block (s := S2048x4096) S512x4096.size (cc0_transform_5 i) (hinb0_5 i)).WholeWords (EltTy.packing .f32)

variable [Facts₀]

def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S32x4096 : Shape := ⟨2, ![32, 4096]⟩
abbrev S4096 : Shape := ⟨1, ![4096]⟩
abbrev S512x4096 : Shape := ⟨2, ![512, 4096]⟩
abbrev S8 : Shape := ⟨1, ![8]⟩
abbrev S_ : Shape := ⟨0, ![]⟩
abbrev S1x8x1 : Shape := ⟨3, ![1, 8, 1]⟩
abbrev S512x1x4096 : Shape := ⟨3, ![512, 1, 4096]⟩
abbrev S512x8x4096 : Shape := ⟨3, ![512, 8, 4096]⟩
abbrev S4096x4096 : Shape := ⟨2, ![4096, 4096]⟩
abbrev S32x128x4096 : Shape := ⟨3, ![32, 128, 4096]⟩
abbrev S32x1x4096 : Shape := ⟨3, ![32, 1, 4096]⟩
abbrev S1x4096 : Shape := ⟨2, ![1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S32x4096, .f32⟩
  | .hbm, ⟨2, _⟩ => ⟨S32x4096, .f32⟩
  | .hbm, ⟨3, _⟩ => ⟨S4096, .f32⟩
  | .hbm, ⟨4, _⟩ => ⟨S512x4096, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x8x1, .i32⟩
  | .hbm, ⟨10, _⟩ => ⟨S512x1x4096, .i32⟩
  | .hbm, ⟨11, _⟩ => ⟨S512x8x4096, .i32⟩
  | .hbm, ⟨12, _⟩ => ⟨S512x8x4096, .i32⟩
  | .hbm, ⟨13, _⟩ => ⟨S512x8x4096, .i32⟩
  | .hbm, ⟨14, _⟩ => ⟨S_, .i32⟩
  | .hbm, ⟨15, _⟩ => ⟨S512x8x4096, .i32⟩
  | .hbm, ⟨16, _⟩ => ⟨S512x8x4096, .i32⟩
  | .hbm, ⟨17, _⟩ => ⟨S4096x4096, .i32⟩
  | .hbm, ⟨18, _⟩ => ⟨S4096x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32x4096, .f32⟩
  | .hbm, ⟨23, _⟩ => ⟨S32x4096, .f32⟩
  | .hbm, ⟨24, _⟩ => ⟨S_, .f32⟩
  | .hbm, ⟨25, _⟩ => ⟨S32x4096, .f32⟩
  | .hbm, ⟨26, _⟩ => ⟨S32x4096, .f32⟩
  | .hbm, ⟨27, _⟩ => ⟨S32x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32x4096, .f32⟩
  | .hbm, ⟨32, _⟩ => ⟨S32x4096, .f32⟩
  | .hbm, ⟨33, _⟩ => ⟨S_, .f32⟩
  | .hbm, ⟨34, _⟩ => ⟨S32x4096, .f32⟩
  | .hbm, ⟨35, _⟩ => ⟨S32x4096, .f32⟩
  | .hbm, ⟨36, _⟩ => ⟨S32x128x4096, .f32⟩
  | .hbm, ⟨37, _⟩ => ⟨S32x1x4096, .f32⟩
  | .hbm, ⟨38, _⟩ => ⟨S32x128x4096, .f32⟩
  | .hbm, ⟨39, _⟩ => ⟨S32x128x4096, .f32⟩
  | .hbm, ⟨40, _⟩ => ⟨S32x1x4096, .f32⟩
  | .hbm, ⟨41, _⟩ => ⟨S32x128x4096, .f32⟩
  | .hbm, ⟨42, _⟩ => ⟨S32x128x4096, .f32⟩
  | .hbm, ⟨43, _⟩ => ⟨S4096x4096, .f32⟩
  | .hbm, ⟨44, _⟩ => ⟨S2048x4096, .f32⟩
  | .hbm, ⟨45, _⟩ => ⟨S1x4096, .f32⟩
  | .hbm, ⟨46, _⟩ => ⟨S2048x4096, .f32⟩
  | .hbm, ⟨47, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S512x4096_S512x1x4096_0_2 : S512x4096.BroadcastsInDim S512x1x4096 (![0, 2] : Fin 2 → Fin S512x1x4096.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S_S32x4096 : S_.BroadcastsInDim S32x4096 (![] : Fin 0 → Fin S32x4096.rank)
  shapeCasts_S4096x4096_S32x128x4096 : S4096x4096.ShapeCasts S32x128x4096
  bcast_S32x4096_S32x1x4096_0_2 : S32x4096.BroadcastsInDim S32x1x4096 (![0, 2] : Fin 2 → Fin S32x1x4096.rank)
  bcast_S32x1x4096_S32x128x4096_0_1_2 : S32x1x4096.BroadcastsInDim S32x128x4096 (![0, 1, 2] : Fin 3 → Fin S32x128x4096.rank)
  shapeCasts_S32x128x4096_S4096x4096 : S32x128x4096.ShapeCasts S4096x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.QuantLinear.lean ====
/-
  A 4-bit, group-quantized linear layer over the extended reals.

  A weight matrix of 4096 rows and 4096 columns is stored packed: word `q[k / 8, n]` holds rows `8·(k/8) … 8·(k/8)+7`
  of column `n`, row `k` in the 4-bit field `k % 8` (an arithmetic shift right by `4·(k % 8)`, then the mask `15`).
  Rows are grouped by 128: group `k / 128` has, per column, a scale and a zero point. The dequantized weight is

      deq[k, n] = (field(q[k/8, n], k % 8) − clampZero(z[k/128, n])) · clampScale(s[k/128, n])

  with `clampZero v = min 15 (max 0 (round-half-even v))` and `clampScale v = min 1e4 (max 1e-5 v)` (the two float
  literals kept as their binary words), and the layer is `out[r, n] = (∑ k, x[r, k] · deq[k, n]) + bias[n]`.

  Also here: the one law that joins a blocked evaluation to the whole one — a sum over 4096 rows is the sum over 16
  consecutive blocks of 256 rows of the blocks' sums — which needs only that addition is commutative and associative,
  so it holds on the extended reals with no finiteness assumption.
-/
import Idealize.ShloMosaic.PureOps.Ideal
import Idealize.ShloMosaic.Lib.ValueIdx
import Mathlib.Algebra.BigOperators.Fin
import Mathlib.Logic.Equiv.Fin.Basic

noncomputable section

open scoped BigOperators

namespace Cert.QuantLinear

open Idealize.ShloMosaic Idealize.ShloMosaic.ValueIdx

/-! ## The packed fields -/

/-- The shift that brings 4-bit field `j` of a packed word down to the low bits: `4·j`. -/
def fieldShift (j : Fin 8) : BitVec 32 := IntOp.muli (BitVec.ofNat 32 j.val) 4#32

/-- Every field's shift is below the word's width, so the shift is the plain arithmetic one on any unit. -/
theorem fieldShift_lt : ∀ j : Fin 8, (fieldShift j).toNat < 32 := by decide

/-- Field `j` of a packed word, as the arithmetic unit `u` computes it: shift right (sign-extending), mask with 15. -/
def fieldOn (u : ArithUnit) (word : BitVec 32) (j : Fin 8) : BitVec 32 :=
  IntOp.andi (IntOp.shrsi u word (fieldShift j)) 15#32

/-- The unit does not matter: units differ only on shifts by the width or more. -/
theorem fieldOn_unit (u v : ArithUnit) (word : BitVec 32) (j : Fin 8) : fieldOn u word j = fieldOn v word j := by
  unfold fieldOn IntOp.shrsi
  rw [if_pos (fieldShift_lt j), if_pos (fieldShift_lt j)]

/-! ## The clamps -/

/-- A scale clamped into `[1e-5, 1e4]` (the bounds as their f32 words). -/
def clampScale (v : EReal) : EReal :=
  min (Ideal.ofBits .f32 0x461C4000#32) (max (Ideal.ofBits .f32 0x3727C5AC#32) v)

/-- A zero point rounded to the nearest integer (ties to even) and clamped into `[0, 15]`. -/
def clampZero (v : EReal) : EReal :=
  min (Ideal.ofBits .f32 0x41700000#32) (max (Ideal.ofBits .f32 0x00000000#32) (Ideal.liftRound Ideal.roundHalfEven v))

/-! ## The layer -/

abbrev SX : Shape := ⟨2, ![2048, 4096]⟩
abbrev SG : Shape := ⟨2, ![32, 4096]⟩
abbrev SB : Shape := ⟨1, ![4096]⟩
abbrev SQ : Shape := ⟨2, ![512, 4096]⟩

/-- The packed word that holds row `k`, its field, and the row's group. -/
def wordRow (k : Fin 4096) : Fin 512 := ⟨k.val / 8, by have := k.isLt; omega⟩
def fieldOf (k : Fin 4096) : Fin 8 := ⟨k.val % 8, Nat.mod_lt _ (by decide)⟩
def groupOf (k : Fin 4096) : Fin 32 := ⟨k.val / 128, by have := k.isLt; omega⟩

/-- The dequantized weight at row `k`, column `n`. -/
def deq (s z : FVec Ideal SG .f32) (q : IVec SQ 32) (k n : Fin 4096) : EReal :=
  (FloatOps.sitofp (F := Ideal) .f32 (fieldOn .vector (q (ix2 (wordRow k) n)) (fieldOf k)) - clampZero (z (ix2 (groupOf k) n)))
    * clampScale (s (ix2 (groupOf k) n))

/-- The layer's output: `x · deq + bias`, index by index. -/
def qlinear (x : FVec Ideal SX .f32) (s z : FVec Ideal SG .f32) (b : FVec Ideal SB .f32) (q : IVec SQ 32) : FVec Ideal SX .f32 :=
  fun i => (∑ k : Fin 4096, x (ix2 (i 0) k) * deq s z q k (i 1)) + b (ix1 (i 1))

/-! ## A sum over 4096 rows, block by block -/

/-- Row `256·s + kk` of the matrix: row `kk` of block `s`. -/
def rowOf (s : Fin 16) (kk : Fin 256) : Fin 4096 := ⟨256 * s.val + kk.val, by have := s.isLt; have := kk.isLt; omega⟩

/-- A sum over the 4096 rows is the sum over the 16 blocks of the sums over each block's 256 rows: a re-indexing of
    a finite sum in a commutative monoid (nothing is cancelled or distributed, so infinite terms are harmless). -/
theorem sum_rows_blocks {M : Type*} [AddCommMonoid M] (f : Fin 4096 → M) :
    ∑ k : Fin 4096, f k = ∑ s : Fin 16, ∑ kk : Fin 256, f (rowOf s kk) := by
  rw [← Fintype.sum_prod_type' (f := fun s kk => f (rowOf s kk))]
  refine (Equiv.sum_comp (finProdFinEquiv (m := 16) (n := 256)) f).symm.trans ?_
  refine Finset.sum_congr rfl fun p _ => congrArg f (Fin.ext ?_)
  show p.2.val + 256 * p.1.val = 256 * p.1.val + p.2.val
  omega

/-- The same with the blocks counted by a natural below 16, as a fold over grid points counts them. -/
theorem sum_rows_range {M : Type*} [AddCommMonoid M] (f : Fin 4096 → M) (g : ℕ → M)
    (hg : ∀ s : Fin 16, g s.val = ∑ kk : Fin 256, f (rowOf s kk)) :
    ∑ k : Fin 4096, f k = ∑ s ∈ Finset.range 16, g s := by
  rw [sum_rows_blocks, ← Fin.sum_univ_eq_sum_range]
  exact Finset.sum_congr rfl fun s _ => (hg s).symm

end Cert.QuantLinear

end
-- ==== Proof.ReferenceSide.lean ====
/-
  The reference program computes the quantized linear layer of `QuantLinear.lean`.

  Read one element at a time: the unpacked integer at row `k`, column `n` is field `k % 8` of word `q[k / 8, n]`
  (the reshape from [512, 8, 4096] to [4096, 4096] sends row `k` to word row `k / 8`, field `k % 8`); the reshape of
  the rows into 32 groups of 128 and back is the identity on `(k, n)` and reads scale and zero point of group
  `k / 128`; the product with `x` is the sum over the 4096 rows; the bias is broadcast along the tokens.
-/
import proofs.«410970_j29832842838126_3_alg».proof.Defs
import proofs.«410970_j29832842838126_3_alg».proof.Proof.Gen.ReferenceIdeal.Read
import proofs.«410970_j29832842838126_3_alg».proof.Proof.QuantLinear

noncomputable section

open scoped BigOperators

namespace Cert.QuantLinear.Reference

open Idealize.ShloMosaic Idealize.ShloMosaic.ValueIdx Cert.QuantLinear
open Cert.ReferenceIdeal Cert.ReferenceIdeal.Read

/-! ## Where each reshape and broadcast reads -/

/-- Row `k` of the unpacked [4096, 4096] matrix is entry `(k / 8, k % 8)` of the [512, 8, 4096] fields. -/
theorem unpackIdx (k n : Fin 4096) : idx_main_v10 (ix2 k n) = ix3 (wordRow k) (fieldOf k) n := by
  have hk := k.isLt; have hn := n.isLt
  funext a; apply Fin.ext
  match a with
  | ⟨0, _⟩ => show (k.val * 4096 + n.val) / 32768 = k.val / 8; omega
  | ⟨1, _⟩ => show (k.val * 4096 + n.val) / 4096 % 8 = k.val % 8; omega
  | ⟨2, _⟩ => show (k.val * 4096 + n.val) % 4096 = n.val; omega

/-- A field of word `(a, n)` reads word `(a, n)` of the packed matrix … -/
theorem wordIdx (a : Fin 512) (b : Fin 8) (n : Fin 4096) : idx_main_v4 (idx_main_v5 (ix3 a b n)) = ix2 a n := by
  funext d; match d with | ⟨0, _⟩ => rfl | ⟨1, _⟩ => rfl

/-- … shifted by the amount of its own field number. -/
theorem shiftIdx (a : Fin 512) (b : Fin 8) (n : Fin 4096) : idx_main_v3 (idx_main_v6 (ix3 a b n)) = ix1 b := by
  funext d; match d with | ⟨0, _⟩ => rfl

/-- Row `k` is row `k % 128` of group `k / 128`. -/
def inGroup (k : Fin 4096) : Fin 128 := ⟨k.val % 128, Nat.mod_lt _ (by decide)⟩

theorem groupIdx (k n : Fin 4096) : idx_main_v22 (ix2 k n) = ix3 (groupOf k) (inGroup k) n := by
  have hk := k.isLt; have hn := n.isLt
  funext a; apply Fin.ext
  match a with
  | ⟨0, _⟩ => show (k.val * 4096 + n.val) / 524288 = k.val / 128; omega
  | ⟨1, _⟩ => show (k.val * 4096 + n.val) / 4096 % 128 = k.val % 128; omega
  | ⟨2, _⟩ => show (k.val * 4096 + n.val) % 4096 = n.val; omega

/-- … and grouping then ungrouping the rows is the identity. -/
theorem ungroupIdx (k n : Fin 4096) : idx_main_v15 (ix3 (groupOf k) (inGroup k) n) = ix2 k n := by
  have hk := k.isLt; have hn := n.isLt
  funext a; apply Fin.ext
  match a with
  | ⟨0, _⟩ => show ((k.val / 128 * 128 + k.val % 128) * 4096 + n.val) / 4096 = k.val; omega
  | ⟨1, _⟩ => show ((k.val / 128 * 128 + k.val % 128) * 4096 + n.val) % 4096 = n.val; omega

/-- A row's zero point is its group's, whatever its place in the group … -/
theorem zeroIdx (g : Fin 32) (j : Fin 128) (n : Fin 4096) : idx_main_v16 (idx_main_v17 (ix3 g j n)) = ix2 g n := by
  funext d; match d with | ⟨0, _⟩ => rfl | ⟨1, _⟩ => rfl

/-- … and so is its scale. -/
theorem scaleIdx (g : Fin 32) (j : Fin 128) (n : Fin 4096) : idx_main_v19 (idx_main_v20 (ix3 g j n)) = ix2 g n := by
  funext d; match d with | ⟨0, _⟩ => rfl | ⟨1, _⟩ => rfl

/-! ## One element at a time -/

variable (x : (⟨S2048x4096, .f32⟩ : BufTy).Contents (Elt Ideal)) (s z : (⟨S32x4096, .f32⟩ : BufTy).Contents (Elt Ideal))
  (b : (⟨S4096, .f32⟩ : BufTy).Contents (Elt Ideal)) (q : (⟨S512x4096, .i32⟩ : BufTy).Contents (Elt Ideal))

/-- The unpacked integer at row `k`, column `n`: the row's field of the row's word. -/
theorem unpacked_apply (k n : Fin 4096) :
    val_main_v10 (F := Ideal) q (ix2 k n) = fieldOn .host (q (ix2 (wordRow k) n)) (fieldOf k) := by
  rw [val_main_v10_apply, unpackIdx, val_main_v9_apply, val_main_v7_apply, val_main_v5_apply, val_main_v4_apply, wordIdx,
    val_main_v6_apply, val_main_v3_apply, shiftIdx, val_main_v2_apply, val_main_v0_apply, val_main_v1_apply, val_main_c_apply,
    val_main_v8_apply, val_main_c_0_apply]
  rfl

/-- The clamped zero point the reference subtracts at group `g`, column `n`. -/
theorem zero_apply (g : Fin 32) (n : Fin 4096) : val_main_v14 (F := Ideal) z (ix2 g n) = clampZero (z (ix2 g n)) := by
  rw [val_main_v14_apply, val_main_call2_v4_apply, val_main_call2_v3_apply, val_main_cst_3_apply, val_main_call2_v2_apply,
    val_main_call2_v1_apply, val_main_call2_v0_apply, val_main_cst_2_apply, val_main_v13_apply]
  rfl

/-- The clamped scale the reference multiplies by at group `g`, column `n`. -/
theorem scale_apply (g : Fin 32) (n : Fin 4096) : val_main_v12 (F := Ideal) s (ix2 g n) = clampScale (s (ix2 g n)) := by
  rw [val_main_v12_apply, val_main_call0_v4_apply, val_main_call0_v3_apply, val_main_cst_1_apply, val_main_call0_v2_apply,
    val_main_call0_v1_apply, val_main_call0_v0_apply, val_main_cst_apply]
  rfl

/-- The reference's dequantized weight is `deq`. -/
theorem deq_apply (k n : Fin 4096) : val_main_v22 (F := Ideal) s z q (ix2 k n) = deq s z q k n := by
  rw [val_main_v22_apply, groupIdx, val_main_v21_apply, val_main_v18_apply, val_main_v15_apply, ungroupIdx, val_main_v11_apply,
    unpacked_apply, val_main_v17_apply, val_main_v16_apply, zeroIdx, zero_apply, val_main_v20_apply, val_main_v19_apply, scaleIdx,
    scale_apply, fieldOn_unit .host .vector]
  rfl

/-- The reference's result is the layer. -/
theorem result_eq : val_main_v26 (F := Ideal) x s z b q = qlinear x s z b q := by
  funext i
  obtain ⟨r, n, rfl⟩ : ∃ (r : Fin 2048) (n : Fin 4096), i = ix2 r n := ⟨i 0, i 1, eq_ix2 i⟩
  have el : ∀ k : Fin 4096, lidx_main_v23 (ix2 r n) k = ix2 r k := fun k => funext fun d => by
    match d with | ⟨0, _⟩ => rfl | ⟨1, _⟩ => rfl
  have er : ∀ k : Fin 4096, ridx_main_v23 (ix2 r n) k = ix2 k n := fun k => funext fun d => by
    match d with | ⟨0, _⟩ => rfl | ⟨1, _⟩ => rfl
  have eb : idx_main_v24 (idx_main_v25 (ix2 r n)) = ix1 n := funext fun d => by
    match d with | ⟨0, _⟩ => rfl
  rw [val_main_v26_apply, val_main_v23_apply, val_main_v25_apply, val_main_v24_apply, eb]
  simp only [el, er, deq_apply]
  rfl

end Cert.QuantLinear.Reference

end
-- ==== Proof.KernelBody.lean ====
/-
  The kernel body's arithmetic, one element at a time, at the exact values.

  One grid point holds a [512, 256] block of `x`, the 32 packed word rows that unpack to the block's 256 weight rows,
  and the two groups' scales and zero points. The body unpacks (word row `kk / 8`, field `kk % 8` for local row `kk`),
  dequantizes with the scale and zero point of local group `kk / 128`, multiplies, and adds the product into the
  output block; a change of float format is the identity here, and a matrix product into a zero accumulator is the plain
  sum over the 256 local rows. The last point of a run also adds the bias row.
-/
import proofs.«410970_j29832842838126_3_alg».proof.Proof.Gen.KernelIdeal.Skeleton
import proofs.«410970_j29832842838126_3_alg».proof.Proof.QuantLinear
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.QuantLinear.Body

open Idealize.ShloMosaic Idealize.ShloMosaic.ValueIdx Cert.QuantLinear
open Cert.KernelIdeal Cert.KernelIdeal.Gen

variable {α : Type}

/-! ## The body's reshapes and broadcasts, read at an index -/

/-- Local row `kk` of the [256, 4096] block is entry `(kk / 8, kk % 8)` of the [32, 8, 4096] fields. -/
def localWord (kk : Fin 256) : Fin 32 := ⟨kk.val / 8, by have := kk.isLt; omega⟩
def localField (kk : Fin 256) : Fin 8 := ⟨kk.val % 8, Nat.mod_lt _ (by decide)⟩
/-- … and row `kk % 128` of local group `kk / 128`. -/
def localGroup (kk : Fin 256) : Fin 2 := ⟨kk.val / 128, by have := kk.isLt; omega⟩
def localInGroup (kk : Fin 256) : Fin 128 := ⟨kk.val % 128, Nat.mod_lt _ (by decide)⟩

theorem fields_to_rows (v : S32x8x4096.Idx → α) (h : S32x8x4096.ShapeCasts S256x4096) (kk : Fin 256) (n : Fin 4096) :
    shapeCast S256x4096 v h (ix2 kk n) = v (ix3 (localWord kk) (localField kk) n) := by
  refine shapeCast_apply v h (ix2 kk n) (ix3 (localWord kk) (localField kk) n) ?_
  rw [Shape.rowMajor_val_three, Shape.rowMajor_val_two]
  have hk := kk.isLt; have hn := n.isLt
  show ((kk.val / 8) * 8 + kk.val % 8) * 4096 + n.val = kk.val * 4096 + n.val
  omega

theorem rows_to_groups (v : S256x4096.Idx → α) (h : S256x4096.ShapeCasts S2x128x4096) (kk : Fin 256) (n : Fin 4096) :
    shapeCast S2x128x4096 v h (ix3 (localGroup kk) (localInGroup kk) n) = v (ix2 kk n) := by
  refine shapeCast_apply v h (ix3 (localGroup kk) (localInGroup kk) n) (ix2 kk n) ?_
  rw [Shape.rowMajor_val_three, Shape.rowMajor_val_two]
  have hk := kk.isLt; have hn := n.isLt
  show kk.val * 4096 + n.val = ((kk.val / 128) * 128 + kk.val % 128) * 4096 + n.val
  omega

theorem groups_to_rows (v : S2x128x4096.Idx → α) (h : S2x128x4096.ShapeCasts S256x4096) (kk : Fin 256) (n : Fin 4096) :
    shapeCast S256x4096 v h (ix2 kk n) = v (ix3 (localGroup kk) (localInGroup kk) n) := by
  refine shapeCast_apply v h (ix2 kk n) (ix3 (localGroup kk) (localInGroup kk) n) ?_
  rw [Shape.rowMajor_val_three, Shape.rowMajor_val_two]
  have hk := kk.isLt; have hn := n.isLt
  show ((kk.val / 128) * 128 + kk.val % 128) * 4096 + n.val = kk.val * 4096 + n.val
  omega

theorem words_add_axis (v : S32x4096.Idx → α) (h : S32x4096.ShapeCasts S32x1x4096) (a : Fin 32) (n : Fin 4096) :
    shapeCast S32x1x4096 v h (ix3 a (0 : Fin 1) n) = v (ix2 a n) := by
  refine shapeCast_apply v h (ix3 a (0 : Fin 1) n) (ix2 a n) ?_
  rw [Shape.rowMajor_val_three, Shape.rowMajor_val_two]
  show a.val * 4096 + n.val = (a.val * 1 + 0) * 4096 + n.val
  omega

theorem words_to_fields (v : S32x1x4096.Idx → α) (h : S32x1x4096.Broadcasts S32x8x4096) (a : Fin 32) (f : Fin 8) (n : Fin 4096) :
    broadcastTo S32x8x4096 v h (ix3 a f n) = v (ix3 a (0 : Fin 1) n) := by
  refine broadcastTo_apply v h (ix3 a f n) (ix3 a (0 : Fin 1) n) fun ax => ?_
  match ax with
  | ⟨0, _⟩ => rfl
  | ⟨1, _⟩ => rfl
  | ⟨2, _⟩ => rfl

theorem shifts_to_fields (v : S1x8x1.Idx → α) (h : S1x8x1.Broadcasts S32x8x4096) (a : Fin 32) (f : Fin 8) (n : Fin 4096) :
    broadcastTo S32x8x4096 v h (ix3 a f n) = v (ix3 (0 : Fin 1) f (0 : Fin 1)) := by
  refine broadcastTo_apply v h (ix3 a f n) (ix3 (0 : Fin 1) f (0 : Fin 1)) fun ax => ?_
  match ax with
  | ⟨0, _⟩ => rfl
  | ⟨1, _⟩ => rfl
  | ⟨2, _⟩ => rfl

theorem group_to_rows (v : S2x1x4096.Idx → α) (h : S2x1x4096.Broadcasts S2x128x4096) (g : Fin 2) (j : Fin 128) (n : Fin 4096) :
    broadcastTo S2x128x4096 v h (ix3 g j n) = v (ix3 g (0 : Fin 1) n) := by
  refine broadcastTo_apply v h (ix3 g j n) (ix3 g (0 : Fin 1) n) fun ax => ?_
  match ax with
  | ⟨0, _⟩ => rfl
  | ⟨1, _⟩ => rfl
  | ⟨2, _⟩ => rfl

/-! ## The payloads -/

/-- The accumulator's reset value is zero everywhere. -/
theorem zero_apply (y : S512x4096.Idx) : k0_pay3 (F := Ideal) y = 0 := by
  unfold k0_pay3
  show Ideal.ofBits .f32 0x00000000#32 = 0
  exact Ideal.ofBits_zero_f32

/-- The `x` block enters the product unchanged. -/
theorem lhs_apply (xb : Vec Ideal S512x256 .f32) (y : S512x256.Idx) : k0_pay4 (F := Ideal) xb y = xb y := rfl

/-- The dequantized weight block at local row `kk`, column `n`. -/
theorem rhs_apply (qb : Vec Ideal S32x4096 .i32) (sb zb : Vec Ideal S2x1x4096 .f32) (kk : Fin 256) (n : Fin 4096) :
    k0_pay5 (F := Ideal) qb sb zb (ix2 kk n)
      = (FloatOps.sitofp (F := Ideal) .f32 (fieldOn .vector (qb (ix2 (localWord kk) n)) (localField kk))
          - clampZero (zb (ix3 (localGroup kk) (0 : Fin 1) n))) * clampScale (sb (ix3 (localGroup kk) (0 : Fin 1) n)) := by
  unfold k0_pay5
  simp only [truncf_apply, groups_to_rows, mulf_apply, subf_apply, rows_to_groups, sitofp_apply, fields_to_rows, group_to_rows,
    shapeCast_self]
  simp only [andi, shrsi, muli, broadcast, words_to_fields, words_add_axis, shifts_to_fields]
  have hio : iota Kind.tc S1x8x1 32 [1] Facts₀.iota_S1x8x1_d1_w32 (ix3 (0 : Fin 1) (localField kk) (0 : Fin 1))
      = BitVec.ofNat 32 (localField kk).val :=
    iota_single_apply Kind.tc S1x8x1 32 1 Facts₀.iota_S1x8x1_d1_w32 _
  rw [hio]
  rfl

/-! ## The product and the accumulation -/

/-- Where the block product reads its operands: row `r` of the `x` block and column `n` of the weight block, at the
    contracted local row. -/
theorem lhs_axis0 (i : S512x4096.Idx) (p : dot_S512x256_S256x4096_S512x4096_1_0_0_1_n_n.contr.Idx) :
    (dot_S512x256_S256x4096_S512x4096_1_0_0_1_n_n.lhsIdx i p 0).val = (i 0).val := by
  unfold DotDims.lhsIdx
  rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
  rfl
theorem lhs_axis1 (i : S512x4096.Idx) (p : dot_S512x256_S256x4096_S512x4096_1_0_0_1_n_n.contr.Idx) :
    (dot_S512x256_S256x4096_S512x4096_1_0_0_1_n_n.lhsIdx i p 1).val = (p ⟨0, by decide⟩).val :=
  dot_S512x256_S256x4096_S512x4096_1_0_0_1_n_n.lhsIdx_val_of_single rfl i p
theorem rhs_axis0 (i : S512x4096.Idx) (p : dot_S512x256_S256x4096_S512x4096_1_0_0_1_n_n.contr.Idx) :
    (dot_S512x256_S256x4096_S512x4096_1_0_0_1_n_n.rhsIdx i p 0).val = (p ⟨0, by decide⟩).val :=
  dot_S512x256_S256x4096_S512x4096_1_0_0_1_n_n.rhsIdx_val_of_single rfl i p
theorem rhs_axis1 (i : S512x4096.Idx) (p : dot_S512x256_S256x4096_S512x4096_1_0_0_1_n_n.contr.Idx) :
    (dot_S512x256_S256x4096_S512x4096_1_0_0_1_n_n.rhsIdx i p 1).val = (i 1).val := by
  unfold DotDims.rhsIdx
  rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
  rfl

/-- One point's update of the output block: what was there plus the sum, over the 256 local rows, of `x` times the
    dequantized weight. -/
theorem accum_apply (a : FVec Ideal S512x256 .bf16) (w : FVec Ideal S256x4096 .bf16) (acc : Vec Ideal S512x4096 .f32)
    (r : Fin 512) (n : Fin 4096) :
    k0_pay1 (F := Ideal) a w acc (ix2 r n) = acc (ix2 r n) + ∑ kk : Fin 256, a (ix2 r kk) * w (ix2 kk n) := by
  unfold k0_pay1
  simp only [shapeCast_self]
  refine congrArg (acc (ix2 r n) + ·) ?_
  simp only [matmul]
  rw [Ideal.matmul_constant_zero_apply, ← Equiv.sum_comp (contrEquiv1 dot_S512x256_S256x4096_S512x4096_1_0_0_1_n_n 256 rfl rfl).symm]
  refine Finset.sum_congr rfl fun k _ => ?_
  have hk := contrEquiv1_symm_val dot_S512x256_S256x4096_S512x4096_1_0_0_1_n_n 256 rfl rfl k
  have el : dot_S512x256_S256x4096_S512x4096_1_0_0_1_n_n.lhsIdx (ix2 r n) ((contrEquiv1 dot_S512x256_S256x4096_S512x4096_1_0_0_1_n_n 256 rfl rfl).symm k) = ix2 r k := funext fun d => Fin.ext (by
    match d with
    | ⟨0, _⟩ => exact lhs_axis0 _ _
    | ⟨1, _⟩ => exact (lhs_axis1 _ _).trans hk)
  have er : dot_S512x256_S256x4096_S512x4096_1_0_0_1_n_n.rhsIdx (ix2 r n) ((contrEquiv1 dot_S512x256_S256x4096_S512x4096_1_0_0_1_n_n 256 rfl rfl).symm k) = ix2 k n := funext fun d => Fin.ext (by
    match d with
    | ⟨0, _⟩ => exact (rhs_axis0 _ _).trans hk
    | ⟨1, _⟩ => exact rhs_axis1 _ _)
  rw [el, er]

/-- The last point's epilogue: the bias row added to every row of the block. -/
theorem bias_apply (acc : Vec Ideal S512x4096 .f32) (bb : Vec Ideal S1x4096 .f32) (r : Fin 512) (n : Fin 4096) :
    k0_pay2 (F := Ideal) acc bb (ix2 r n) = acc (ix2 r n) + bb (ix2 (0 : Fin 1) n) := by
  unfold k0_pay2
  simp only [shapeCast_self]
  refine congrArg (acc (ix2 r n) + ·) ?_
  exact broadcastTo_1b_ab_apply bb _ r n

end Cert.QuantLinear.Body

end
-- ==== Proof.KernelBlocks.lean ====
/-
  What each window's block holds at a grid point, read off the argument arrays.

  Point `t` of the 4 × 16 grid is row block `t / 16`, row-of-weights block `t % 16`. Its `x` block is rows
  `512·(t/16) …`, columns `256·(t%16) …`; its packed-weight block is word rows `32·(t%16) …`; its scale and zero-point
  blocks are groups `2·(t%16)` and `2·(t%16)+1` (the arrays reshaped on the host from [32, 4096] to [32, 1, 4096]: the same
  entries); its bias block is the whole bias row (reshaped from [4096] to [1, 4096]).
-/
import proofs.«410970_j29832842838126_3_alg».proof.Proof.Gen.KernelIdeal.Value
import Idealize.ShloMosaic.Lib.Pipeline.Value
import Idealize.ShloMosaic.Lib.ValueIdx
import Idealize.ShloMosaic.Lib.StableHlo.Run

noncomputable section

namespace Cert.QuantLinear.Blocks

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-! ## The argument arrays, by their literal types -/

abbrev xArr (c : Dev nD) : FVec Ideal S2048x4096 .f32 := m ((c : Thread nD τ).loc main_arg0)
abbrev sArr (c : Dev nD) : FVec Ideal S32x4096 .f32 := m ((c : Thread nD τ).loc main_arg1)
abbrev zArr (c : Dev nD) : FVec Ideal S32x4096 .f32 := m ((c : Thread nD τ).loc main_arg2)
abbrev bArr (c : Dev nD) : FVec Ideal S4096 .f32 := m ((c : Thread nD τ).loc main_arg3)
abbrev qArr (c : Dev nD) : IVec S512x4096 32 := m ((c : Thread nD τ).loc main_arg4)

/-! ## The blocks, by their literal types -/

abbrev xBlk (c : Dev nD) (t : Fin cfg0.N) : Vec Ideal S512x256 .f32 := iblk m c 0 t
abbrev qBlk (c : Dev nD) (t : Fin cfg0.N) : Vec Ideal S32x4096 .i32 := iblk m c 1 t
abbrev sBlk (c : Dev nD) (t : Fin cfg0.N) : Vec Ideal S2x1x4096 .f32 := iblk m c 2 t
abbrev zBlk (c : Dev nD) (t : Fin cfg0.N) : Vec Ideal S2x1x4096 .f32 := iblk m c 3 t
abbrev bBlk (c : Dev nD) (t : Fin cfg0.N) : Vec Ideal S1x4096 .f32 := iblk m c 4 t

/-- The printed index maps over the grid: point `t` is (row block `t / 16`, weight-row block `t % 16`). -/
theorem idx_facts : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 3) = t.val % 16 ∧ win0_2.index t (1 : Fin 3) = 0 ∧ win0_2.index t (2 : Fin 3) = 0
    ∧ win0_3.index t (0 : Fin 3) = t.val % 16 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

/-! ## The host reshapes before the region -/

theorem scales_reshaped (c : Dev nD) :
    (V m c main_v1 : S32x1x4096.Idx → EReal) = shapeCast S32x1x4096 (sArr m c) Facts₀.shapeCasts_S32x4096_S32x1x4096 := by
  dsimp only [V, hostOps0]; after_results; rfl

theorem zeros_reshaped (c : Dev nD) :
    (V m c main_v2 : S32x1x4096.Idx → EReal) = shapeCast S32x1x4096 (zArr m c) Facts₀.shapeCasts_S32x4096_S32x1x4096 := by
  dsimp only [V, hostOps0]; after_results; rfl

theorem bias_reshaped (c : Dev nD) :
    (V m c main_v0 : S1x4096.Idx → EReal) = shapeCast S1x4096 (bArr m c) Facts₀.shapeCasts_S4096_S1x4096 := by
  dsimp only [V, hostOps0]; after_results; rfl

/-! ## The blocks read at an index -/

theorem xBlk_apply (c : Dev nD) (t : Fin cfg0.N) (r : Fin 512) (kk : Fin 256) (R : Fin 2048) (K : Fin 4096)
    (hR : R.val = 512 * (t.val / 16) + r.val) (hK : K.val = 256 * (t.val % 16) + kk.val) :
    xBlk m c t (ix2 r kk) = xArr m c (ix2 R K) := by
  obtain ⟨e0, e1, -⟩ := idx_facts t
  unfold xBlk iblk
  rw [View.read_apply]
  show V m c main_arg0 _ = _
  rw [V_main_arg0]
  refine congrArg _ (funext fun a => Fin.ext ?_)
  match a with
  | ⟨0, _⟩ => show win0_0.index t (0 : Fin 2) * 512 + 1 * r.val = R.val; rw [e0, hR]; omega
  | ⟨1, _⟩ => show win0_0.index t (1 : Fin 2) * 256 + 1 * kk.val = K.val; rw [e1, hK]; omega

theorem qBlk_apply (c : Dev nD) (t : Fin cfg0.N) (a : Fin 32) (n : Fin 4096) (A : Fin 512)
    (hA : A.val = 32 * (t.val % 16) + a.val) :
    qBlk m c t (ix2 a n) = qArr m c (ix2 A n) := by
  obtain ⟨-, -, e0, e1, -⟩ := idx_facts t
  unfold qBlk iblk
  rw [View.read_apply]
  show V m c main_arg4 _ = _
  rw [V_main_arg4]
  refine congrArg _ (funext fun d => Fin.ext ?_)
  match d with
  | ⟨0, _⟩ => show win0_1.index t (0 : Fin 2) * 32 + 1 * a.val = A.val; rw [e0, hA]; omega
  | ⟨1, _⟩ => show win0_1.index t (1 : Fin 2) * 4096 + 1 * n.val = n.val; rw [e1]; omega

theorem sBlk_apply (c : Dev nD) (t : Fin cfg0.N) (g : Fin 2) (n : Fin 4096) (G : Fin 32)
    (hG : G.val = 2 * (t.val % 16) + g.val) :
    sBlk m c t (ix3 g (0 : Fin 1) n) = sArr m c (ix2 G n) := by
  obtain ⟨-, -, -, -, e0, e1, e2, -⟩ := idx_facts t
  unfold sBlk iblk
  rw [View.read_apply]
  show V m c main_v1 _ = _
  rw [scales_reshaped]
  refine shapeCast_apply _ _ _ (ix2 G n) ?_
  rw [Shape.rowMajor_val_two, Shape.rowMajor_val_three]
  show G.val * 4096 + n.val = ((win0_2.index t (0 : Fin 3) * 2 + 1 * g.val) * 1 + (win0_2.index t (1 : Fin 3) * 1 + 1 * 0)) * 4096 + (win0_2.index t (2 : Fin 3) * 4096 + 1 * n.val)
  rw [e0, e1, e2, hG]; omega

theorem zBlk_apply (c : Dev nD) (t : Fin cfg0.N) (g : Fin 2) (n : Fin 4096) (G : Fin 32)
    (hG : G.val = 2 * (t.val % 16) + g.val) :
    zBlk m c t (ix3 g (0 : Fin 1) n) = zArr m c (ix2 G n) := by
  obtain ⟨-, -, -, -, -, -, -, e0, e1, e2, -⟩ := idx_facts t
  unfold zBlk iblk
  rw [View.read_apply]
  show V m c main_v2 _ = _
  rw [zeros_reshaped]
  refine shapeCast_apply _ _ _ (ix2 G n) ?_
  rw [Shape.rowMajor_val_two, Shape.rowMajor_val_three]
  show G.val * 4096 + n.val = ((win0_3.index t (0 : Fin 3) * 2 + 1 * g.val) * 1 + (win0_3.index t (1 : Fin 3) * 1 + 1 * 0)) * 4096 + (win0_3.index t (2 : Fin 3) * 4096 + 1 * n.val)
  rw [e0, e1, e2, hG]; omega

theorem bBlk_apply (c : Dev nD) (t : Fin cfg0.N) (n : Fin 4096) :
    bBlk m c t (ix2 (0 : Fin 1) n) = bArr m c (ix1 n) := by
  obtain ⟨-, -, -, -, -, -, -, -, -, -, e0, e1⟩ := idx_facts t
  unfold bBlk iblk
  rw [View.read_apply]
  show V m c main_v0 _ = _
  rw [bias_reshaped]
  refine shapeCast_apply _ _ _ (ix1 n) ?_
  rw [Shape.rowMajor_val_one, Shape.rowMajor_val_two]
  show n.val = (win0_4.index t (0 : Fin 2) * 1 + 1 * 0) * 4096 + (win0_4.index t (1 : Fin 2) * 4096 + 1 * n.val)
  rw [e0, e1]; omega

end Cert.QuantLinear.Blocks

end
-- ==== Proof.KernelFold.lean ====
/-
  After a run of 16 grid points the output block holds the layer's rows.

  The output block is reset to zero plus the first point's product, every later point adds its own, and the run's last
  point also adds the bias. Point `16·q + s` contributes the sum over weight rows `256·s … 256·s + 255` of
  `x[512·q + r, k] · deq[k, n]`; the 16 contributions of a run are the 16 blocks of the sum over all 4096 rows.
-/
import proofs.«410970_j29832842838126_3_alg».proof.Proof.Gen.KernelIdeal.Value
import proofs.«410970_j29832842838126_3_alg».proof.Proof.QuantLinear
import proofs.«410970_j29832842838126_3_alg».proof.Proof.KernelBody
import proofs.«410970_j29832842838126_3_alg».proof.Proof.KernelBlocks
import Idealize.ShloMosaic.Lib.Pipeline.Value
import Idealize.ShloMosaic.Lib.ValueIdx

noncomputable section

open scoped BigOperators

namespace Cert.QuantLinear.Fold

open Idealize.ShloMosaic Idealize.ShloMosaic.TcCoe Idealize.SL.Sem Idealize.ShloMosaic.ValueIdx
open Cert.KernelIdeal Cert.KernelIdeal.Gen Cert.QuantLinear Cert.QuantLinear.Blocks

variable (m : (ℓ : Loc nD τ sig) → Buf (Elt Ideal) ℓ)

/-- What grid point `t` adds to the output block at local index `y`: its `x` block times its dequantized weight
    block (zero past the grid, where it is never read). -/
def addend (c : Dev nD) (t : ℕ) (y : S512x4096.Idx) : EReal :=
  if h : t < cfg0.N then
    ∑ kk : Fin 256, xBlk m c ⟨t, h⟩ (ix2 (y 0) kk)
      * k0_pay5 (F := Ideal) (qBlk m c ⟨t, h⟩) (sBlk m c ⟨t, h⟩) (zBlk m c ⟨t, h⟩) (ix2 kk (y 1))
  else 0

/-- A run's first point: zero plus its contribution. -/
theorem reset_apply (c : Dev nD) (t : ℕ) (h : t < cfg0.N) (y : S512x4096.Idx) :
    Value.reset5 m c t h y = 0 + addend m c t y := by
  obtain ⟨r, n, rfl⟩ : ∃ (r : Fin 512) (n : Fin 4096), y = ix2 r n := ⟨y 0, y 1, eq_ix2 y⟩
  unfold Value.reset5 addend
  rw [dif_pos h]
  refine (Body.accum_apply (k0_pay4 (xBlk m c ⟨t, h⟩)) (k0_pay5 (qBlk m c ⟨t, h⟩) (sBlk m c ⟨t, h⟩) (zBlk m c ⟨t, h⟩))
    (k0_pay3 (F := Ideal)) r n).trans ?_
  rw [Body.zero_apply]
  rfl

/-- A point inside a run: what the point before left plus its contribution. -/
theorem step_mid (c : Dev nD) (t : ℕ) (h : t < cfg0.N) (acc : Vec Ideal S512x4096 .f32) (y : S512x4096.Idx)
    (h0 : ¬t % 16 = 0) (h1 : ¬t % 16 = 15) :
    Value.step5 m c t h acc y = acc y + addend m c t y := by
  obtain ⟨r, n, rfl⟩ : ∃ (r : Fin 512) (n : Fin 4096), y = ix2 r n := ⟨y 0, y 1, eq_ix2 y⟩
  unfold Value.step5 addend
  rw [if_pos ⟨h0, h1⟩, dif_pos h]
  exact Body.accum_apply (k0_pay4 (xBlk m c ⟨t, h⟩)) (k0_pay5 (qBlk m c ⟨t, h⟩) (sBlk m c ⟨t, h⟩) (zBlk m c ⟨t, h⟩)) acc r n

/-- A run's last point: the same, then the bias. -/
theorem step_last (c : Dev nD) (t : ℕ) (h : t < cfg0.N) (acc : Vec Ideal S512x4096 .f32) (r : Fin 512) (n : Fin 4096)
    (h0 : ¬t % 16 = 0) (h1 : t % 16 = 15) :
    Value.step5 m c t h acc (ix2 r n) = (acc (ix2 r n) + addend m c t (ix2 r n)) + bBlk m c ⟨t, h⟩ (ix2 (0 : Fin 1) n) := by
  unfold Value.step5 addend
  rw [if_neg (fun hh => hh.2 h1), if_pos ⟨h0, h1⟩, dif_pos h]
  refine (Body.bias_apply _ (bBlk m c ⟨t, h⟩) r n).trans ?_
  exact congrArg (· + bBlk m c ⟨t, h⟩ (ix2 (0 : Fin 1) n))
    (Body.accum_apply (k0_pay4 (xBlk m c ⟨t, h⟩)) (k0_pay5 (qBlk m c ⟨t, h⟩) (sBlk m c ⟨t, h⟩) (zBlk m c ⟨t, h⟩)) acc r n)

/-- Point `16·q + s` contributes weight rows `256·s …` of row `512·q + r`'s sum. -/
theorem addend_eq (c : Dev nD) (q s : ℕ) (hq : q < 4) (hs : s < 16) (r : Fin 512) (n : Fin 4096) (R : Fin 2048)
    (hR : R.val = 512 * q + r.val) :
    addend m c (16 * q + s) (ix2 r n)
      = ∑ kk : Fin 256, xArr m c (ix2 R (rowOf ⟨s, hs⟩ kk)) * deq (sArr m c) (zArr m c) (qArr m c) (rowOf ⟨s, hs⟩ kk) n := by
  have ht : 16 * q + s < cfg0.N := by rw [show cfg0.N = 64 from N_0]; omega
  unfold addend
  rw [dif_pos ht]
  refine Finset.sum_congr rfl fun kk _ => ?_
  show xBlk m c ⟨16 * q + s, ht⟩ (ix2 r kk)
      * k0_pay5 (F := Ideal) (qBlk m c ⟨16 * q + s, ht⟩) (sBlk m c ⟨16 * q + s, ht⟩) (zBlk m c ⟨16 * q + s, ht⟩) (ix2 kk n) = _
  have hkk := kk.isLt
  have hf : fieldOf (rowOf ⟨s, hs⟩ kk) = Body.localField kk := Fin.ext (by
    show (256 * s + kk.val) % 8 = kk.val % 8; omega)
  rw [Body.rhs_apply (qBlk m c ⟨16 * q + s, ht⟩) (sBlk m c ⟨16 * q + s, ht⟩) (zBlk m c ⟨16 * q + s, ht⟩) kk n,
    xBlk_apply m c ⟨16 * q + s, ht⟩ r kk R (rowOf ⟨s, hs⟩ kk)
      (by show R.val = 512 * ((16 * q + s) / 16) + r.val; rw [hR]; omega)
      (by show 256 * s + kk.val = 256 * ((16 * q + s) % 16) + kk.val; omega),
    qBlk_apply m c ⟨16 * q + s, ht⟩ (Body.localWord kk) n (wordRow (rowOf ⟨s, hs⟩ kk))
      (by show (256 * s + kk.val) / 8 = 32 * ((16 * q + s) % 16) + kk.val / 8; omega),
    sBlk_apply m c ⟨16 * q + s, ht⟩ (Body.localGroup kk) n (groupOf (rowOf ⟨s, hs⟩ kk))
      (by show (256 * s + kk.val) / 128 = 2 * ((16 * q + s) % 16) + kk.val / 128; omega),
    zBlk_apply m c ⟨16 * q + s, ht⟩ (Body.localGroup kk) n (groupOf (rowOf ⟨s, hs⟩ kk))
      (by show (256 * s + kk.val) / 128 = 2 * ((16 * q + s) % 16) + kk.val / 128; omega)]
  unfold deq
  rw [hf]

/-- The whole run: row block `q` of the layer. -/
theorem run_fold (c : Dev nD) (q : ℕ) (hq : q < 4) (hN : 16 * q + 15 < cfg0.N) (r : Fin 512) (n : Fin 4096) (R : Fin 2048)
    (hR : R.val = 512 * q + r.val) :
    Pipeline.accAt (Value.reset5 m c) (Value.step5 m c) (16 * q) 15 hN (ix2 r n)
      = qlinear (xArr m c) (sArr m c) (zArr m c) (bArr m c) (qArr m c) (ix2 R n) := by
  have h14 : 16 * q + 14 < cfg0.N := by omega
  -- the run's first fifteen points: zero plus their contributions
  have hhead : Pipeline.accAt (Value.reset5 m c) (Value.step5 m c) (16 * q) 14 h14 (ix2 r n)
      = 0 + ∑ s ∈ Finset.range 15, addend m c (16 * q + s) (ix2 r n) :=
    Pipeline.accAt_add_apply (Value.reset5 m c) (Value.step5 m c) (fun _ => 0) (addend m c) (16 * q) 14
      (fun h i => reset_apply m c (16 * q) h i)
      (fun t h acc i h1 h2 => step_mid m c t h acc i (by omega) (by omega)) 14 le_rfl h14 (ix2 r n)
  -- its last point: one more contribution, then the bias
  have hlast : Pipeline.accAt (Value.reset5 m c) (Value.step5 m c) (16 * q) 15 hN (ix2 r n)
      = (Pipeline.accAt (Value.reset5 m c) (Value.step5 m c) (16 * q) 14 h14 (ix2 r n)
          + addend m c (16 * q + 15) (ix2 r n)) + bArr m c (ix1 n) := by
    show Value.step5 m c (16 * q + 15) hN (Pipeline.accAt (Value.reset5 m c) (Value.step5 m c) (16 * q) 14 h14) (ix2 r n) = _
    refine (step_last m c (16 * q + 15) hN _ r n (by omega) (by omega)).trans ?_
    rw [bBlk_apply]
  rw [hlast, hhead, zero_add]
  show _ = (∑ k : Fin 4096, xArr m c (ix2 R k) * deq (sArr m c) (zArr m c) (qArr m c) k n) + bArr m c (ix1 n)
  rw [sum_rows_range (fun k => xArr m c (ix2 R k) * deq (sArr m c) (zArr m c) (qArr m c) k n)
      (fun s => addend m c (16 * q + s) (ix2 r n))
      (fun s => addend_eq m c q s.val hq s.isLt r n R hR),
    Finset.sum_range_succ _ 15]

/-- The kernel's result array is the layer of the argument arrays. -/
theorem result_eq (c : Dev nD) :
    Value.G5 m c = qlinear (xArr m c) (sArr m c) (zArr m c) (bArr m c) (qArr m c) := by
  funext i
  have hi0 : (i 0).val < 2048 := (i 0).isLt
  have hi1 : (i 1).val < 4096 := (i 1).isLt
  have hr : Value.run5Of i = (i 0).val / 512 := by
    show 1 * ((i 0).val / 512 - 0) + 1 * ((i 1).val / 4096 - 0) = _
    have : (i 1).val / 4096 = 0 := by omega
    omega
  have hN : cfg0.N = 64 := N_0
  unfold Value.G5
  rw [dif_pos (by rw [hr, hN]; omega)]
  have hl : Value.loc5Of i = ix2 (⟨(i 0).val % 512, Nat.mod_lt _ (by decide)⟩ : Fin 512) (⟨(i 1).val % 4096, Nat.mod_lt _ (by decide)⟩ : Fin 4096) :=
    funext fun a => by match a with | ⟨0, _⟩ => rfl | ⟨1, _⟩ => rfl
  rw [hl]
  refine (run_fold m c (Value.run5Of i) (by rw [hr]; omega) _ _ _ (i 0)
    (by rw [hr]; show (i 0).val = 512 * ((i 0).val / 512) + (i 0).val % 512; omega)).trans ?_
  exact congrArg (qlinear (xArr m c) (sArr m c) (zArr m c) (bArr m c) (qArr m c)) (funext fun a => by
    match a with
    | ⟨0, _⟩ => rfl
    | ⟨1, _⟩ => exact Fin.ext (Nat.mod_eq_of_lt hi1))

end Cert.QuantLinear.Fold

end
-- ==== Proof.lean ====
/-
  A 4-bit group-quantized linear layer: the tiled kernel against the plain reference, over the extended reals.

  Both programs compute `out[r, n] = (∑ k, x[r, k] · deq[k, n]) + bias[n]` with
  `deq[k, n] = (field(q[k/8, n], k % 8) − clampZero(z[k/128, n])) · clampScale(s[k/128, n])` (QuantLinear.lean).
  The reference does it in one pass: it unpacks the whole weight matrix, dequantizes group by group, takes one matrix
  product and adds the bias (ReferenceSide.lean). The kernel walks a 4 × 16 grid: for each block of 512 rows of `x` it
  zeroes the output block, adds the product with 256 dequantized weight rows at each of 16 points, and adds the bias at
  the last (KernelBody.lean, KernelBlocks.lean); the 16 partial sums are the 16 blocks of the one sum over 4096 rows
  (KernelFold.lean). The only law used is that a finite sum may be regrouped, which holds for every extended real, so
  the finiteness of the inputs is never opened. The kernel casts its operands to bf16 before the product; at the
  exact values a change of format is the identity. The idealization changed nothing in the kernel's text, so the
  preservation claim is trivial.
-/
import proofs.«410970_j29832842838126_3_alg».proof.Defs
import proofs.«410970_j29832842838126_3_alg».proof.Proof.Gen.Kernel.Frame
import proofs.«410970_j29832842838126_3_alg».proof.Proof.Gen.KernelIdeal.Value
import proofs.«410970_j29832842838126_3_alg».proof.Proof.Gen.Pre_finite_inputs
import proofs.«410970_j29832842838126_3_alg».proof.Proof.Gen.ReferenceIdeal.Run
import proofs.«410970_j29832842838126_3_alg».proof.Proof.Gen.ReferenceIdeal.Read
import proofs.«410970_j29832842838126_3_alg».proof.Proof.ReferenceSide
import proofs.«410970_j29832842838126_3_alg».proof.Proof.KernelFold
import Idealize.ShloMosaic.Adequacy
import Idealize.ShloMosaic.Init

noncomputable section

namespace Cert.Proof

open Idealize.ShloMosaic Idealize.SL.Sem

/-- The idealized kernel terminates without a fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- So does the reference: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the five arguments, both programs end with the layer `qlinear` of those arguments in
    their result array: the kernel's run leaves the fold of its 16-point runs, which is `qlinear`; the reference's run
    leaves its composed term, which is `qlinear`. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v26_eq _ _ _ _ _).trans
    ((Cert.QuantLinear.Reference.result_eq _ _ _ _ _).trans (Cert.QuantLinear.Fold.result_eq m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
